-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x1408 : Shape := ⟨3, ![8, 2048, 1408]⟩
abbrev S8x1408x2048 : Shape := ⟨3, ![8, 1408, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x1408 : S_.BroadcastsInDim S8x2048x1408 (![] : Fin 0 → Fin S8x2048x1408.rank)
  reducesTo_S8x2048x1408_S_d0_1_2 : S8x2048x1408.ReducesTo [0, 1, 2] S_
  bcast_S_S8x1408x2048 : S_.BroadcastsInDim S8x1408x2048 (![] : Fin 0 → Fin S8x1408x2048.rank)
  reducesTo_S8x1408x2048_S_d0_1_2 : S8x1408x2048.ReducesTo [0, 1, 2] S_

variable [Facts]

def fn_part1 {F : FTy → Type} [FloatOps F] (main_v13 : IVec S_ 1) (main_v16 : IVec S8x1408x2048 1) : IVec S_ 1 :=
  let main_c_5 : IVec S_ 1 := constantI S_ 1 1#1
  let main_v17 : IVec S_ 1 := (fun x v => Host.reduce IntOp.andi x v reducesTo_S8x1408x2048_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x1408 .f32) (main_arg2 : FVec F S8x2048x1408 .f32) (main_arg3 : FVec F S8x1408x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x1408 .f32 := Host.absf main_arg1
  let main_cst_0 : FVec F S_ .f32 := constant S_ .f32 0x7F800000#32
  let main_v5 : FVec F S8x2048x1408 .f32 := broadcastInDim S8x2048x1408 ![] bcast_S_S8x2048x1408 main_cst_0
  let main_v6 : IVec S8x2048x1408 1 := cmpf .olt main_v4 main_v5
  let main_c_1 : IVec S_ 1 := constantI S_ 1 1#1
  let main_v7 : IVec S_ 1 := (fun x v => Host.reduce IntOp.andi x v reducesTo_S8x2048x1408_S_d0_1_2 h_S_) main_v6 main_c_1
  let main_v8 : IVec S_ 1 := andi main_v3 main_v7
  let main_v9 : FVec F S8x2048x1408 .f32 := Host.absf main_arg2
  let main_cst_2 : FVec F S_ .f32 := constant S_ .f32 0x7F800000#32
  let main_v10 : FVec F S8x2048x1408 .f32 := broadcastInDim S8x2048x1408 ![] bcast_S_S8x2048x1408 main_cst_2
  let main_v11 : IVec S8x2048x1408 1 := cmpf .olt main_v9 main_v10
  let main_c_3 : IVec S_ 1 := constantI S_ 1 1#1
  let main_v12 : IVec S_ 1 := (fun x v => Host.reduce IntOp.andi x v reducesTo_S8x2048x1408_S_d0_1_2 h_S_) main_v11 main_c_3
  let main_v13 : IVec S_ 1 := andi main_v8 main_v12
  let main_v14 : FVec F S8x1408x2048 .f32 := Host.absf main_arg3
  let main_cst_4 : FVec F S_ .f32 := constant S_ .f32 0x7F800000#32
  let main_v15 : FVec F S8x1408x2048 .f32 := broadcastInDim S8x1408x2048 ![] bcast_S_S8x1408x2048 main_cst_4
  let main_v16 : IVec S8x1408x2048 1 := cmpf .olt main_v14 main_v15
  fn_part1 (F := F) main_v13 main_v16
-- ==== Kernel.lean ====
abbrev S8x2048x2048 : Shape := ⟨3, ![8, 2048, 2048]⟩
abbrev S8x2048x1408 : Shape := ⟨3, ![8, 2048, 1408]⟩
abbrev S8x1408x2048 : Shape := ⟨3, ![8, 1408, 2048]⟩
abbrev S1x512x2048 : Shape := ⟨3, ![1, 512, 2048]⟩
abbrev S1x2048x1408 : Shape := ⟨3, ![1, 2048, 1408]⟩
abbrev S1x1408x2048 : Shape := ⟨3, ![1, 1408, 2048]⟩
abbrev S512x2048 : Shape := ⟨2, ![512, 2048]⟩
abbrev S2048x1408 : Shape := ⟨2, ![2048, 1408]⟩
abbrev S1408x2048 : Shape := ⟨2, ![1408, 2048]⟩
abbrev S512x1408 : Shape := ⟨2, ![512, 1408]⟩

abbrev nBuf : Space → Nat
  | .hbm => 9
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1408, .f32⟩
  | .hbm, ⟨2, _⟩ => ⟨S8x2048x1408, .f32⟩
  | .hbm, ⟨3, _⟩ => ⟨S8x1408x2048, .f32⟩
  | .hbm, ⟨4, _⟩ => ⟨S8x2048x2048, .bf16⟩
  | .hbm, ⟨5, _⟩ => ⟨S8x2048x1408, .bf16⟩
  | .hbm, ⟨6, _⟩ => ⟨S8x2048x1408, .bf16⟩
  | .hbm, ⟨7, _⟩ => ⟨S8x1408x2048, .bf16⟩
  | .hbm, ⟨8, _⟩ => ⟨S8x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1408x2048, .bf16⟩
  | .local _ .vmem, ⟨5, _⟩ => ⟨S1x512x2048, .f32⟩
  | .local _ .vmem, ⟨6, _⟩ => ⟨S1x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1408x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  inb_S1x1408x2048_S1x1408x2048_0_0_0 : ∀ a, (![0, 0, 0] : Fin 3 → Nat) a + S1x1408x2048.size a ≤ S1x1408x2048.size a
  h_S1x1408x2048 : 0 < S1x1408x2048.numel
  shapeCasts_S1x1408x2048_S1408x2048 : S1x1408x2048.ShapeCasts S1408x2048
  shapeCasts_S512x2048_S1x512x2048 : S512x2048.ShapeCasts S1x512x2048
  dot_S512x2048_S2048x1408_S512x1408_1_0_0_1_n_n_wf : DotDims.WF S512x2048 S2048x1408 S512x1408 [1] [0] [0] [1] [] []
  dot_S512x1408_S1408x2048_S512x2048_1_0_0_1_n_n_wf : DotDims.WF S512x1408 S1408x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1408.size a ≤ S8x2048x1408.size a
  hwx0_1 : ∀ i : grid0.Coords, EltTy.bits .bf16 = 32 ∨ (Rect.block (s := S8x2048x1408) S1x2048x1408.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1408x2048.size a ≤ S8x1408x2048.size a
  hwx0_3 : ∀ i : grid0.Coords, EltTy.bits .bf16 = 32 ∨ (Rect.block (s := S8x1408x2048) S1x1408x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x1408_S512x1408_1_0_0_1_n_n : DotDims S512x2048 S2048x1408 S512x1408 where
  lhsContracting := [1]
  rhsContracting := [0]
  lhsNonContracting := [0]
  rhsNonContracting := [1]
  lhsBatch := []
  rhsBatch := []
  wf := dot_S512x2048_S2048x1408_S512x1408_1_0_0_1_n_n_wf
def dot_S512x1408_S1408x2048_S512x2048_1_0_0_1_n_n : DotDims S512x1408 S1408x2048 S512x2048 where
  lhsContracting := [1]
  rhsContracting := [0]
  lhsNonContracting := [0]
  rhsNonContracting := [1]
  lhsBatch := []
  rhsBatch := []
  wf := dot_S512x1408_S1408x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1408.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1408.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1408x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x1408 : Shape := ⟨3, ![8, 2048, 1408]⟩
abbrev S8x1408x2048 : Shape := ⟨3, ![8, 1408, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1408, .f32⟩
  | .hbm, ⟨2, _⟩ => ⟨S8x2048x1408, .f32⟩
  | .hbm, ⟨3, _⟩ => ⟨S8x1408x2048, .f32⟩
  | .hbm, ⟨4, _⟩ => ⟨S8x2048x1408, .f32⟩
  | .hbm, ⟨5, _⟩ => ⟨S8x2048x1408, .f32⟩
  | .hbm, ⟨6, _⟩ => ⟨S8x2048x1408, .f32⟩
  | .hbm, ⟨7, _⟩ => ⟨S8x2048x1408, .f32⟩
  | .hbm, ⟨8, _⟩ => ⟨S_, .f32⟩
  | .hbm, ⟨9, _⟩ => ⟨S8x2048x1408, .f32⟩
  | .hbm, ⟨10, _⟩ => ⟨S8x2048x1408, .f32⟩
  | .hbm, ⟨11, _⟩ => ⟨S_, .f32⟩
  | .hbm, ⟨12, _⟩ => ⟨S8x2048x1408, .f32⟩
  | .hbm, ⟨13, _⟩ => ⟨S8x2048x1408, .f32⟩
  | .hbm, ⟨14, _⟩ => ⟨S8x2048x1408, .f32⟩
  | .hbm, ⟨15, _⟩ => ⟨S8x2048x1408, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x1408 : S_.BroadcastsInDim S8x2048x1408 (![] : Fin 0 → Fin S8x2048x1408.rank)
  dot_S8x2048x2048_S8x2048x1408_S8x2048x1408_2_1_1_2_0_0_wf : DotDims.WF S8x2048x2048 S8x2048x1408 S8x2048x1408 [2] [1] [1] [2] [0] [0]
  dot_S8x2048x1408_S8x1408x2048_S8x2048x2048_2_1_1_2_0_0_wf : DotDims.WF S8x2048x1408 S8x1408x2048 S8x2048x2048 [2] [1] [1] [2] [0] [0]

variable [Facts₀]

def dot_S8x2048x2048_S8x2048x1408_S8x2048x1408_2_1_1_2_0_0 : DotDims S8x2048x2048 S8x2048x1408 S8x2048x1408 where
  lhsContracting := [2]
  rhsContracting := [1]
  lhsNonContracting := [1]
  rhsNonContracting := [2]
  lhsBatch := [0]
  rhsBatch := [0]
  wf := dot_S8x2048x2048_S8x2048x1408_S8x2048x1408_2_1_1_2_0_0_wf
def dot_S8x2048x1408_S8x1408x2048_S8x2048x2048_2_1_1_2_0_0 : DotDims S8x2048x1408 S8x1408x2048 S8x2048x2048 where
  lhsContracting := [2]
  rhsContracting := [1]
  lhsNonContracting := [1]
  rhsNonContracting := [2]
  lhsBatch := [0]
  rhsBatch := [0]
  wf := dot_S8x2048x1408_S8x1408x2048_S8x2048x2048_2_1_1_2_0_0_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.SwiGLU.lean ====
/-
  The grouped-expert SwiGLU network as ONE function of its four argument arrays, over the extended reals.

  For expert `e`, token `t` and hidden unit `h` the two projections of the token are
      g = Σ_k x[e,t,k] · W_gate[e,k,h]        u = Σ_k x[e,t,k] · W_down[e,k,h]
  (sums over the 2048 model coordinates `k`), the hidden activation is `silu(g) · u` with `silu(g) = g · σ(g)` and
  `σ(g) = 1 / (1 + e^(-g))`, and the output is
      out[e,t,d] = Σ_h (g · σ(g) · u)[e,t,h] · W_up[e,h,d]
  (a sum over the 1408 hidden units). Every product keeps the order of its factors as written here, so no law of the
  extended reals beyond the definitions is used anywhere: nothing is distributed, cancelled or re-associated, and the
  function is the same at infinite entries as at finite ones.

  The one fact about values is `sigmoid_host`: the sigmoid spelt with a negation, an exponential, an addition of the
  constant one and a quotient — the constant read from its binary32 word `0x3F800000` — is the sigmoid `σ`.
-/
import Idealize.ShloMosaic.PureOps.Ideal
import Idealize.ShloMosaic.Lib.ValueIdx
import Idealize.ShloMosaic.Lib.IdealHost

noncomputable section

namespace Cert.SwiGLU

open Idealize.ShloMosaic Idealize.ShloMosaic.ValueIdx

/-- Tokens and outputs: expert × token × model coordinate. -/
abbrev Tok : Shape := ⟨3, ![8, 2048, 2048]⟩
/-- The gate and the value weights: expert × model coordinate × hidden unit. -/
abbrev Win : Shape := ⟨3, ![8, 2048, 1408]⟩
/-- The output weights: expert × hidden unit × model coordinate. -/
abbrev Wout : Shape := ⟨3, ![8, 1408, 2048]⟩

/-- Token `(e, t)` projected on hidden unit `h` of expert `e`'s weight `w`: `Σ_k x[e,t,k] · w[e,k,h]`. -/
def proj (x : FVec Ideal Tok .f32) (w : FVec Ideal Win .f32) (e : Fin 8) (t : Fin 2048) (h : Fin 1408) : EReal :=
  ∑ k : Fin 2048, x (ix3 e t k) * w (ix3 e k h)

/-- The hidden activation `silu(g) · u = (g · σ(g)) · u` at `(e, t, h)`. -/
def hidden (x : FVec Ideal Tok .f32) (wg wd : FVec Ideal Win .f32) (e : Fin 8) (t : Fin 2048) (h : Fin 1408) : EReal :=
  proj x wg e t h * Ideal.logistic (proj x wg e t h) * proj x wd e t h

/-- The network: `out[e,t,d] = Σ_h hidden[e,t,h] · W_up[e,h,d]`. -/
def out (x : FVec Ideal Tok .f32) (wg wd : FVec Ideal Win .f32) (wu : FVec Ideal Wout .f32) : FVec Ideal Tok .f32 :=
  fun i => ∑ h : Fin 1408, hidden x wg wd (i 0) (i 1) h * wu (ix3 (i 0) h (i 2))

/-- The network at explicit coordinates. -/
theorem out_apply (x : FVec Ideal Tok .f32) (wg wd : FVec Ideal Win .f32) (wu : FVec Ideal Wout .f32)
    (e : Fin 8) (t d : Fin 2048) :
    out x wg wd wu (ix3 e t d) = ∑ h : Fin 1408, hidden x wg wd e t h * wu (ix3 e h d) := rfl

/-- `1 / (1 + e^(-g))` with the constant one read from its binary32 word is the sigmoid of `g`, at every extended
    real `g` (at `-∞` both are `0`, at `+∞` both are `1`: it is the sigmoid's definition). -/
theorem sigmoid_host (g : EReal) :
    Ideal.div (Ideal.ofBits .f32 0x3F800000#32) (Ideal.ofBits .f32 0x3F800000#32 + Ideal.exp (-g)) = Ideal.logistic g := by
  rw [Ideal.ofBits_one_f32]
  rfl

end Cert.SwiGLU

end
-- ==== Proof.Tile.lean ====
/-
  One tile of the kernel: 512 tokens of one expert against that expert's three weight blocks.

  The body loads a `1 × 512 × 2048` block of tokens and the expert's `1 × 2048 × 1408` gate and value blocks and
  `1 × 1408 × 2048` output block, drops the unit axis of each, and computes, for row `r` of the tile,
      g[r,h] = Σ_k x[r,k] · W_gate[k,h]      u[r,h] = Σ_k x[r,k] · W_down[k,h]
      out[r,d] = Σ_h (g · σ(g) · u)[r,h] · W_up[h,d]
  — two products into a zero accumulator, the sigmoid as one operation, two elementwise products, a change of float
  format (the identity on the extended reals), a third product into a zero accumulator — and stores the result with the
  unit axis put back. Read at an index each product is the plain sum over its contraction coordinate and every other
  step acts on the one element.
-/
import proofs.«175378_j64372969833101_1_alg».proof.Proof.Gen.KernelIdeal.Skeleton
import proofs.«175378_j64372969833101_1_alg».proof.Proof.LibDot
import proofs.«175378_j64372969833101_1_alg».proof.Proof.SwiGLU
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.ValueIdx

/-- Row `r` of the token tile projected on hidden unit `h` of a weight block: `Σ_k x[0,r,k] · w[0,k,h]`. -/
def proj (xb : FVec Ideal S1x512x2048 .bf16) (wb : FVec Ideal S1x2048x1408 .bf16) (r : Fin 512) (h : Fin 1408) : EReal :=
  ∑ k : Fin 2048, xb (ix3 0 r k) * wb (ix3 0 k h)

/-- The tile's hidden activation `(g · σ(g)) · u` at row `r`, hidden unit `h`. -/
def hidden (xb : FVec Ideal S1x512x2048 .bf16) (wg wd : FVec Ideal S1x2048x1408 .bf16) (r : Fin 512) (h : Fin 1408) : EReal :=
  proj xb wg r h * Ideal.logistic (proj xb wg r h) * proj xb wd r h

/-- A product of the token tile with a gate or value block, both with their unit axis dropped, into the zero
    accumulator, at `(r, h)`. -/
theorem proj_apply (xb : FVec Ideal S1x512x2048 .bf16) (wb : FVec Ideal S1x2048x1408 .bf16)
    (hx : S1x512x2048.ShapeCasts S512x2048) (hw : S1x2048x1408.ShapeCasts S2048x1408) (r : Fin 512) (h : Fin 1408) :
    matmul dot_S512x2048_S2048x1408_S512x1408_1_0_0_1_n_n none (shapeCast S512x2048 xb hx) (shapeCast S2048x1408 wb hw)
        (constant S512x1408 .f32 0x00000000#32) (ix2 r h) = proj xb wb r h := by
  refine (Cert.GNN.matmul_plain_zero_apply none _ _ r h).trans ?_
  unfold proj
  exact Finset.sum_congr rfl fun k _ => by rw [shapeCast_1ab_ab_apply, shapeCast_1ab_ab_apply]

/-- The body's stored value at row `r`, model coordinate `d` of the tile. -/
theorem pay_apply (xb : FVec Ideal S1x512x2048 .bf16) (wg wd : FVec Ideal S1x2048x1408 .bf16)
    (wu : FVec Ideal S1x1408x2048 .bf16) (u : Fin 1) (r : Fin 512) (d : Fin 2048) :
    k0_pay1 (F := Ideal) xb wg wd wu (ix3 u r d) = ∑ h : Fin 1408, hidden xb wg wd r h * wu (ix3 0 h d) := by
  unfold k0_pay1
  rw [shapeCast_ab_1ab_apply]
  refine (Cert.GNN.matmul_plain_zero_apply none _ _ r d).trans ?_
  refine Finset.sum_congr rfl fun h _ => ?_
  rw [shapeCast_1ab_ab_apply]
  unfold hidden
  simp only [truncf, mulf, logistic, Ideal.truncf_def, Ideal.mulf_def, Ideal.logistic_def, proj_apply]

/-- A TILE OF THE NETWORK. If row `r` of the token tile is token `T` of expert `e` and the three weight blocks are
    expert `e`'s, the tile's result at `(r, d)` is the network's at `(e, T, d)`: the sums run over the same
    coordinates and meet the same entries. -/
theorem tile_out (X : FVec Ideal SwiGLU.Tok .f32) (G D : FVec Ideal SwiGLU.Win .f32) (U : FVec Ideal SwiGLU.Wout .f32)
    (xb : FVec Ideal S1x512x2048 .bf16) (wg wd : FVec Ideal S1x2048x1408 .bf16) (wu : FVec Ideal S1x1408x2048 .bf16)
    (e : Fin 8) (T : Fin 2048) (r : Fin 512) (d : Fin 2048)
    (hx : ∀ k : Fin 2048, xb (ix3 0 r k) = X (ix3 e T k))
    (hg : ∀ (k : Fin 2048) (h : Fin 1408), wg (ix3 0 k h) = G (ix3 e k h))
    (hd : ∀ (k : Fin 2048) (h : Fin 1408), wd (ix3 0 k h) = D (ix3 e k h))
    (hu : ∀ h : Fin 1408, wu (ix3 0 h d) = U (ix3 e h d)) :
    ∑ h : Fin 1408, hidden xb wg wd r h * wu (ix3 0 h d) = SwiGLU.out X G D U (ix3 e T d) := by
  have hp : ∀ (w : FVec Ideal S1x2048x1408 .bf16) (W : FVec Ideal SwiGLU.Win .f32),
      (∀ (k : Fin 2048) (h : Fin 1408), w (ix3 0 k h) = W (ix3 e k h)) → ∀ h : Fin 1408, proj xb w r h = SwiGLU.proj X W e T h := by
    intro w W hw h
    unfold proj SwiGLU.proj
    exact Finset.sum_congr rfl fun k _ => by rw [hx k, hw k h]
  rw [SwiGLU.out_apply]
  refine Finset.sum_congr rfl fun h _ => ?_
  unfold hidden SwiGLU.hidden
  rw [hp wg G hg h, hp wd D hd h, hu h]

end Cert.KernelIdeal.Tile

end
-- ==== Proof.Whole.lean ====
/-
  From tiles to the whole array.

  The grid has 8 × 4 points: point `(e, q)` works on tokens `512·q … 512·q + 511` of expert `e`. Its token window and
  its output window are block `(e, q, 0)` of their arrays (one expert, 512 tokens, all 2048 model coordinates); its three
  weight windows are block `(e, 0, 0)`: the whole of expert `e`'s weights. The arrays the windows read are the
  arguments after a change of float format, which on the extended reals changes nothing. So what point `(e, q)` writes
  back is block `(e, q, 0)` of the network of the four arguments (`Tile.tile_out`), the 32 blocks tile the output array
  (token `T` of expert `e` lies in the block of point `(e, T / 512)`), and the array ends holding the network.
-/
import proofs.«175378_j64372969833101_1_alg».proof.Proof.Gen.KernelIdeal.Value
import proofs.«175378_j64372969833101_1_alg».proof.Proof.Tile
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-! ## The arrays the windows read are the arguments -/

theorem staged0 (c : Dev nD) : (V m c main_v0 : S8x2048x2048.Idx → EReal) = m ((c : Thread nD τ).loc main_arg0) := by
  dsimp only [V, hostOps0]; after_results; rfl
theorem staged1 (c : Dev nD) : (V m c main_v1 : S8x2048x1408.Idx → EReal) = m ((c : Thread nD τ).loc main_arg1) := by
  dsimp only [V, hostOps0]; after_results; rfl
theorem staged2 (c : Dev nD) : (V m c main_v2 : S8x2048x1408.Idx → EReal) = m ((c : Thread nD τ).loc main_arg2) := by
  dsimp only [V, hostOps0]; after_results; rfl
theorem staged3 (c : Dev nD) : (V m c main_v3 : S8x1408x2048.Idx → EReal) = m ((c : Thread nD τ).loc main_arg3) := by
  dsimp only [V, hostOps0]; after_results; rfl

/-! ## The index maps, decided over the 32 points -/

theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 ∧ win0_4.index t (0 : Fin 3) ≤ 7 ∧ win0_4.index t (1 : Fin 3) ≤ 3 :=
  (by decide +kernel : ∀ t : Fin grid0.N, _)

/-- Every block `(e, q, 0)` of the output is some point's. -/
theorem idx_onto : ∀ (e : Fin 8) (q : Fin 4), ∃ t : Fin cfg0.N, win0_4.index t = ![e.val, q.val, 0] :=
  (by decide +kernel : ∀ (e : Fin 8) (q : Fin 4), ∃ t : Fin grid0.N, win0_4.index t = ![e.val, q.val, 0])

/-- The network of the four arguments on core `c`. -/
abbrev net (c : Dev nD) : S8x2048x2048.Idx → EReal :=
  SwiGLU.out (m ((c : Thread nD τ).loc main_arg0)) (m ((c : Thread nD τ).loc main_arg1)) (m ((c : Thread nD τ).loc main_arg2)) (m ((c : Thread nD τ).loc main_arg3))

/-! ## What a point writes back -/

/-- Point `t` writes back block `t` of the network: its token tile is the block's tokens, its weight tiles the
    block's expert's. -/
theorem flushed_eq (c : Dev nD) (t : Fin cfg0.N) :
    (dats m 0 c).flushed 4 t = ((cfg0.win 4).blk t).view.read (Elt Ideal) (net m c) := by
  rw [Value.flushed4]
  unfold out0_4
  rw [View.canon_unit_zero zero3]
  simp only [View.ld_unit_zero (S := S1x512x2048) zero3, View.ld_unit_zero (S := S1x2048x1408) zero3, View.ld_unit_zero (S := S1x1408x2048) zero3]
  funext j
  obtain ⟨u, r, d, rfl⟩ : ∃ (u : Fin 1) (r : Fin 512) (d : Fin 2048), (j : S1x512x2048.Idx) = ix3 u r d :=
    ⟨j 0, j 1, j 2, eq_ix3 (n0 := 1) (n1 := 512) (n2 := 2048) j⟩
  show k0_pay1 (F := Ideal) (iblk m c 0 t) (iblk m c 1 t) (iblk m c 2 t) (iblk m c 3 t) (ix3 u r d)
    = net m c (((cfg0.win 4).blk t).view.emb (ix3 u r d))
  refine (Tile.pay_apply (iblk m c 0 t) (iblk m c 1 t) (iblk m c 2 t) (iblk m c 3 t) u r d).trans ?_
  obtain ⟨a00, a01, a02, a10, a11, a12, a20, a21, a22, a30, a31, a32, o2, o0, o1⟩ := idx_facts t
  have hu : u.val = 0 := by omega
  have hr : r.val < 512 := r.isLt
  have hemb : ((cfg0.win 4).blk t).view.emb (ix3 u r d)
      = ix3 (⟨win0_4.index t (0 : Fin 3), by omega⟩ : Fin 8) (⟨win0_4.index t (1 : Fin 3) * 512 + r.val, by omega⟩ : Fin 2048) d := by
    funext a; apply Fin.ext
    match a with
    | ⟨0, _⟩ => show win0_4.index t (0 : Fin 3) * 1 + 1 * u.val = win0_4.index t (0 : Fin 3); omega
    | ⟨1, _⟩ => show win0_4.index t (1 : Fin 3) * 512 + 1 * r.val = win0_4.index t (1 : Fin 3) * 512 + r.val; omega
    | ⟨2, _⟩ => show win0_4.index t (2 : Fin 3) * 2048 + 1 * d.val = d.val; omega
  rw [hemb]
  refine Tile.tile_out (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) _ _ r d ?_ ?_ ?_ ?_
  · intro k
    refine (congrFun (staged0 m c) (((cfg0.win 0).blk t).view.emb (ix3 0 r k))).trans ?_
    refine congrArg (m ((c : Thread nD τ).loc main_arg0)) ?_
    funext a; apply Fin.ext
    match a with
    | ⟨0, _⟩ => show win0_0.index t (0 : Fin 3) * 1 + 1 * 0 = win0_4.index t (0 : Fin 3); omega
    | ⟨1, _⟩ => show win0_0.index t (1 : Fin 3) * 512 + 1 * r.val = win0_4.index t (1 : Fin 3) * 512 + r.val; omega
    | ⟨2, _⟩ => show win0_0.index t (2 : Fin 3) * 2048 + 1 * k.val = k.val; omega
  · intro k h
    refine (congrFun (staged1 m c) (((cfg0.win 1).blk t).view.emb (ix3 0 k h))).trans ?_
    refine congrArg (m ((c : Thread nD τ).loc main_arg1)) ?_
    funext a; apply Fin.ext
    match a with
    | ⟨0, _⟩ => show win0_1.index t (0 : Fin 3) * 1 + 1 * 0 = win0_4.index t (0 : Fin 3); omega
    | ⟨1, _⟩ => show win0_1.index t (1 : Fin 3) * 2048 + 1 * k.val = k.val; omega
    | ⟨2, _⟩ => show win0_1.index t (2 : Fin 3) * 1408 + 1 * h.val = h.val; omega
  · intro k h
    refine (congrFun (staged2 m c) (((cfg0.win 2).blk t).view.emb (ix3 0 k h))).trans ?_
    refine congrArg (m ((c : Thread nD τ).loc main_arg2)) ?_
    funext a; apply Fin.ext
    match a with
    | ⟨0, _⟩ => show win0_2.index t (0 : Fin 3) * 1 + 1 * 0 = win0_4.index t (0 : Fin 3); omega
    | ⟨1, _⟩ => show win0_2.index t (1 : Fin 3) * 2048 + 1 * k.val = k.val; omega
    | ⟨2, _⟩ => show win0_2.index t (2 : Fin 3) * 1408 + 1 * h.val = h.val; omega
  · intro h
    refine (congrFun (staged3 m c) (((cfg0.win 3).blk t).view.emb (ix3 0 h d))).trans ?_
    refine congrArg (m ((c : Thread nD τ).loc main_arg3)) ?_
    funext a; apply Fin.ext
    match a with
    | ⟨0, _⟩ => show win0_3.index t (0 : Fin 3) * 1 + 1 * 0 = win0_4.index t (0 : Fin 3); omega
    | ⟨1, _⟩ => show win0_3.index t (1 : Fin 3) * 1408 + 1 * h.val = h.val; omega
    | ⟨2, _⟩ => show win0_3.index t (2 : Fin 3) * 2048 + 1 * d.val = d.val; omega

/-! ## The blocks tile the array -/

/-- An index is in point `t`'s block iff each coordinate is in the block's range on its axis. -/
theorem mem_blk (t : Fin cfg0.N) (i : S8x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v4).slice (win0_4.rect t)).set ↔ _
  rw [View.set_slice_whole, Rect.mem_set_unit]
  exact Iff.rfl

/-- Token `T` of expert `e` lies in the block of the point whose block index is `(e, T / 512, 0)`. -/
theorem cover (i : S8x2048x2048.Idx) : ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-! ## The array after the run, and the run -/

/-- The output array ends holding the network of the four arguments. -/
theorem final (c : Dev nD) : (dats m 0 c).arrAt 4 cfg0.N = net m c :=
  (dats m 0 c).arrAt_eq_of_cover 4 (net m c) (fun t _ => flushed_eq m c t) cover

/-- Every weakly fair execution of the idealized kernel ends with the result array at the network of the argument
    arrays, the arguments unchanged. -/
theorem run : θ_run defs (onTc (τ := τ) (main (F := Ideal))) ⟨m, fun _ => 0, ρ⟩ fun r => ∀ c : Dev nD,
      r.2.mem ((c : Thread nD τ).loc main_v4) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference computes the network.

  The reference's program is thirteen array operations: two batched products of the tokens with the gate and the value
  weights (batch axis the expert, contraction over the model coordinate), the sigmoid of the first spelt out as
  negate, exponential, add one, divide into one, two elementwise products, and a batched product with the output
  weights (contraction over the hidden unit). Read at an index, each batched product is a sum over its contraction
  coordinate, each elementwise step acts on the one element, so the last array at `(e, t, d)` is
  `Σ_h (g · σ(g) · u)[e,t,h] · W_up[e,h,d]` with `g`, `u` the two projections: the network `SwiGLU.out`.
-/
import proofs.«175378_j64372969833101_1_alg».proof.Proof.Gen.ReferenceIdeal.Read
import proofs.«175378_j64372969833101_1_alg».proof.Proof.SwiGLU

noncomputable section

namespace Cert.ReferenceIdeal.RefValue

open Cert.ReferenceIdeal Cert.ReferenceIdeal.Gen Cert.ReferenceIdeal.Read
open Idealize.ShloMosaic Idealize.ShloMosaic.ValueIdx

/-! ## Where each batched product reads its operands -/

/-- The first two products read token `(e, t)` at model coordinate `k`, -/
theorem lidx0 (e : Fin 8) (t : Fin 2048) (h : Fin 1408) (k : Fin 2048) :
    lidx_main_v0 (ix3 e t h) k = ix3 e t k :=
  funext fun a => Fin.ext (by match a with | ⟨0, _⟩ => rfl | ⟨1, _⟩ => rfl | ⟨2, _⟩ => rfl)
/-- and expert `e`'s weight at `(k, h)`. -/
theorem ridx0 (e : Fin 8) (t : Fin 2048) (h : Fin 1408) (k : Fin 2048) :
    ridx_main_v0 (ix3 e t h) k = ix3 e k h :=
  funext fun a => Fin.ext (by match a with | ⟨0, _⟩ => rfl | ⟨1, _⟩ => rfl | ⟨2, _⟩ => rfl)
theorem lidx1 (e : Fin 8) (t : Fin 2048) (h : Fin 1408) (k : Fin 2048) :
    lidx_main_v1 (ix3 e t h) k = ix3 e t k :=
  funext fun a => Fin.ext (by match a with | ⟨0, _⟩ => rfl | ⟨1, _⟩ => rfl | ⟨2, _⟩ => rfl)
theorem ridx1 (e : Fin 8) (t : Fin 2048) (h : Fin 1408) (k : Fin 2048) :
    ridx_main_v1 (ix3 e t h) k = ix3 e k h :=
  funext fun a => Fin.ext (by match a with | ⟨0, _⟩ => rfl | ⟨1, _⟩ => rfl | ⟨2, _⟩ => rfl)
/-- The last product reads the hidden activation of the output's expert and token at hidden unit `h`, -/
theorem lidx4 (e : Fin 8) (t d : Fin 2048) (h : Fin 1408) : lidx_main_v4 (ix3 e t d) h = ix3 e t h :=
  funext fun a => Fin.ext (by match a with | ⟨0, _⟩ => rfl | ⟨1, _⟩ => rfl | ⟨2, _⟩ => rfl)
/-- and the expert's output weight at `(h, d)`. -/
theorem ridx4 (e : Fin 8) (t d : Fin 2048) (h : Fin 1408) : ridx_main_v4 (ix3 e t d) h = ix3 e h d :=
  funext fun a => Fin.ext (by match a with | ⟨0, _⟩ => rfl | ⟨1, _⟩ => rfl | ⟨2, _⟩ => rfl)

/-! ## The stages at explicit coordinates -/

/-- The gate projection. -/
theorem gate_eq (x : FVec Ideal S8x2048x2048 .f32) (wg : FVec Ideal S8x2048x1408 .f32) (e : Fin 8) (t : Fin 2048) (h : Fin 1408) :
    val_main_v0 (F := Ideal) x wg (ix3 e t h) = SwiGLU.proj x wg e t h := by
  rw [val_main_v0_apply]
  unfold SwiGLU.proj
  exact Finset.sum_congr rfl fun k _ => by rw [lidx0, ridx0]

/-- The value projection. -/
theorem value_eq (x : FVec Ideal S8x2048x2048 .f32) (wd : FVec Ideal S8x2048x1408 .f32) (e : Fin 8) (t : Fin 2048) (h : Fin 1408) :
    val_main_v1 (F := Ideal) x wd (ix3 e t h) = SwiGLU.proj x wd e t h := by
  rw [val_main_v1_apply]
  unfold SwiGLU.proj
  exact Finset.sum_congr rfl fun k _ => by rw [lidx1, ridx1]

/-- The hidden activation: the gate projection times its sigmoid (spelt with negate, exponential, add, divide) times
    the value projection. -/
theorem hidden_eq (x : FVec Ideal S8x2048x2048 .f32) (wg wd : FVec Ideal S8x2048x1408 .f32) (e : Fin 8) (t : Fin 2048) (h : Fin 1408) :
    val_main_v3 (F := Ideal) x wg wd (ix3 e t h) = SwiGLU.hidden x wg wd e t h := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, gate_eq, value_eq]
  unfold SwiGLU.hidden
  simp only [Ideal.mulf_def, Ideal.hostDivf_def, Ideal.addf_def, Ideal.hostUnary_exp_def, Ideal.hostNegf_def,
    Ideal.negf_def, Ideal.ofBits_def, SwiGLU.sigmoid_host]

/-! ## The result -/

/-- The reference's last array is the network of its four arguments. -/
theorem result_eq (x : FVec Ideal S8x2048x2048 .f32) (wg wd : FVec Ideal S8x2048x1408 .f32) (wu : FVec Ideal S8x1408x2048 .f32) :
    val_main_v4 (F := Ideal) x wg wd wu = SwiGLU.out x wg wd wu := by
  funext i
  obtain ⟨e, t, d, rfl⟩ : ∃ (e : Fin 8) (t : Fin 2048) (d : Fin 2048), i = ix3 e t d := ⟨i 0, i 1, i 2, eq_ix3 i⟩
  rw [val_main_v4_apply, SwiGLU.out_apply]
  exact Finset.sum_congr rfl fun h _ => by rw [lidx4, ridx4, hidden_eq]

end Cert.ReferenceIdeal.RefValue

end
-- ==== Proof.lean ====
/-
  A grouped-expert SwiGLU layer, computed tile by tile, is the layer.

  Eight experts each map 2048 tokens `x[e,t,·]` of 2048 coordinates through
      out[e,t,d] = Σ_h (g · σ(g) · u)[e,t,h] · W_up[e,h,d],   g = Σ_k x[e,t,k] · W_gate[e,k,h],   u = Σ_k x[e,t,k] · W_down[e,k,h],
  with `σ(g) = 1 / (1 + e^(-g))` and 1408 hidden units `h`. The kernel walks a grid of 8 × 4 points, one expert and 512
  tokens at a time, keeping the expert's three weight blocks in place; per tile it forms `g` and `u` as products into a
  zero accumulator, applies the sigmoid as one operation, multiplies, and forms the last product. Its arrays are first
  converted to a 16-bit float format and the hidden activation is converted once more before the last product: on the
  extended reals a change of format is the identity. The reference forms the same three products over whole arrays
  with the expert as a batch axis, and spells the sigmoid as negate, exponential, add one, divide into one.

  On the extended reals the two are one function of the four arrays, entry by entry, at every input: every sum runs
  over the same coordinates and every product keeps its factors in the same order, so no law beyond the definitions
  of the operations is needed, and the precondition (finite inputs) is never opened.
    • `SwiGLU`   — the layer as one function; the spelt-out sigmoid is the sigmoid.
    • `RefValue` — the reference's last array is that function of its arguments.
    • `Tile`     — one tile's stored value is the layer's value on the tile's tokens (`LibDot`: a plain product at an entry).
    • `Whole`    — the 32 tiles' blocks tile the output array, which therefore ends holding the layer.
  Both kernels' frames (termination, no fault, arguments unchanged) are the generated ones; the reference's is its
  generated run with the result dropped; nothing was rewritten between the kernel and its idealization.
-/
import proofs.«175378_j64372969833101_1_alg».proof.Defs
import proofs.«175378_j64372969833101_1_alg».proof.Proof.Gen.Kernel
import proofs.«175378_j64372969833101_1_alg».proof.Proof.Gen.Kernel.Frame
import proofs.«175378_j64372969833101_1_alg».proof.Proof.Gen.KernelIdeal
import proofs.«175378_j64372969833101_1_alg».proof.Proof.Gen.KernelIdeal.Frame
import proofs.«175378_j64372969833101_1_alg».proof.Proof.Gen.KernelIdeal.Value
import proofs.«175378_j64372969833101_1_alg».proof.Proof.Gen.ReferenceIdeal
import proofs.«175378_j64372969833101_1_alg».proof.Proof.Gen.ReferenceIdeal.Run
import proofs.«175378_j64372969833101_1_alg».proof.Proof.Gen.ReferenceIdeal.Read
import proofs.«175378_j64372969833101_1_alg».proof.Proof.Gen.Pre_finite_inputs
import proofs.«175378_j64372969833101_1_alg».proof.Proof.Whole
import proofs.«175378_j64372969833101_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments, the idealized kernel's result array ends at the layer of its
    arguments (`Whole.run`) and the reference's at its last stage, which is the layer of its arguments
    (`RefValue.result_eq`): the same array. -/
theorem algebraic : Cert.algebraic_KernelIdeal_ReferenceIdeal := by
  intro m ρ m' ρ' _ hagree
  refine ⟨fun c => Cert.KernelIdeal.Whole.net m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
